-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x64 : Shape := ⟨3, ![4, 4096, 64]⟩
abbrev S4x4096x4096 : Shape := ⟨3, ![4, 4096, 4096]⟩
abbrev S_ : Shape := ⟨0, ![]⟩

class Facts : Prop where
  bcast_S_S4x4096x64 : S_.BroadcastsInDim S4x4096x64 (![] : Fin 0 → Fin S4x4096x64.rank)
  reducesTo_S4x4096x64_S_d0_1_2 : S4x4096x64.ReducesTo [0, 1, 2] S_
  h_S_ : 0 < S_.numel
  bcast_S_S4x4096x4096 : S_.BroadcastsInDim S4x4096x4096 (![] : Fin 0 → Fin S4x4096x4096.rank)
  reducesTo_S4x4096x4096_S_d0_1_2 : S4x4096x4096.ReducesTo [0, 1, 2] S_

variable [Facts]

def fn_part1 {F : FTy → Type} [FloatOps F] (main_v13 : IVec S_ 1) (main_v16 : IVec S4x4096x4096 1) : IVec S_ 1 :=
  let main_c_5 : IVec S_ 1 := constantI S_ 1 1#1
  let main_v17 : IVec S_ 1 := (fun x v => Host.reduce IntOp.andi x v reducesTo_S4x4096x4096_S_d0_1_2 h_S_) main_v16 main_c_5
  let main_v18 : IVec S_ 1 := andi main_v13 main_v17
  main_v18

def fn {F : FTy → Type} [FloatOps F] (main_arg0 : FVec F S4x4096x64 .f32) (main_arg1 : FVec F S4x4096x64 .f32) (main_arg2 : FVec F S4x4096x64 .f32) (main_arg3 : FVec F S4x4096x4096 .f32) : IVec S_ 1 :=
  let main_v0 : FVec F S4x4096x64 .f32 := Host.absf main_arg0
  let main_cst : FVec F S_ .f32 := constant S_ .f32 0x7F800000#32
  let main_v1 : FVec F S4x4096x64 .f32 := broadcastInDim S4x4096x64 ![] bcast_S_S4x4096x64 main_cst
  let main_v2 : IVec S4x4096x64 1 := cmpf .olt main_v0 main_v1
  let main_c : IVec S_ 1 := constantI S_ 1 1#1
  let main_v3 : IVec S_ 1 := (fun x v => Host.reduce IntOp.andi x v reducesTo_S4x4096x64_S_d0_1_2 h_S_) main_v2 main_c
  let main_v4 : FVec F S4x4096x64 .f32 := Host.absf main_arg1
  let main_cst_0 : FVec F S_ .f32 := constant S_ .f32 0x7F800000#32
  let main_v5 : FVec F S4x4096x64 .f32 := broadcastInDim S4x4096x64 ![] bcast_S_S4x4096x64 main_cst_0
  let main_v6 : IVec S4x4096x64 1 := cmpf .olt main_v4 main_v5
  let main_c_1 : IVec S_ 1 := constantI S_ 1 1#1
  let main_v7 : IVec S_ 1 := (fun x v => Host.reduce IntOp.andi x v reducesTo_S4x4096x64_S_d0_1_2 h_S_) main_v6 main_c_1
  let main_v8 : IVec S_ 1 := andi main_v3 main_v7
  let main_v9 : FVec F S4x4096x64 .f32 := Host.absf main_arg2
  let main_cst_2 : FVec F S_ .f32 := constant S_ .f32 0x7F800000#32
  let main_v10 : FVec F S4x4096x64 .f32 := broadcastInDim S4x4096x64 ![] bcast_S_S4x4096x64 main_cst_2
  let main_v11 : IVec S4x4096x64 1 := cmpf .olt main_v9 main_v10
  let main_c_3 : IVec S_ 1 := constantI S_ 1 1#1
  let main_v12 : IVec S_ 1 := (fun x v => Host.reduce IntOp.andi x v reducesTo_S4x4096x64_S_d0_1_2 h_S_) main_v11 main_c_3
  let main_v13 : IVec S_ 1 := andi main_v8 main_v12
  let main_v14 : FVec F S4x4096x4096 .f32 := Host.absf main_arg3
  let main_cst_4 : FVec F S_ .f32 := constant S_ .f32 0x7F800000#32
  let main_v15 : FVec F S4x4096x4096 .f32 := broadcastInDim S4x4096x4096 ![] bcast_S_S4x4096x4096 main_cst_4
  let main_v16 : IVec S4x4096x4096 1 := cmpf .olt main_v14 main_v15
  fn_part1 (F := F) main_v13 main_v16
-- ==== Kernel.lean ====
abbrev S4x4096x64 : Shape := ⟨3, ![4, 4096, 64]⟩
abbrev S4x4096x4096 : Shape := ⟨3, ![4, 4096, 4096]⟩
abbrev S1x256x64 : Shape := ⟨3, ![1, 256, 64]⟩
abbrev S1x4096x64 : Shape := ⟨3, ![1, 4096, 64]⟩
abbrev S1x256x4096 : Shape := ⟨3, ![1, 256, 4096]⟩
abbrev S4096x64 : Shape := ⟨2, ![4096, 64]⟩
abbrev S4096x128 : Shape := ⟨2, ![4096, 128]⟩
abbrev S4096x1 : Shape := ⟨2, ![4096, 1]⟩
abbrev S4096x63 : Shape := ⟨2, ![4096, 63]⟩
abbrev S256x64 : Shape := ⟨2, ![256, 64]⟩
abbrev S256x4096 : Shape := ⟨2, ![256, 4096]⟩
abbrev S256 : Shape := ⟨1, ![256]⟩
abbrev S256x1 : Shape := ⟨2, ![256, 1]⟩
abbrev S256x128 : Shape := ⟨2, ![256, 128]⟩

abbrev nBuf : Space → Nat
  | .hbm => 5
  | .vmem => 12
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S4x4096x64, .f32⟩
  | .hbm, ⟨3, _⟩ => ⟨S4x4096x4096, .f32⟩
  | .hbm, ⟨4, _⟩ => ⟨S4x4096x64, .f32⟩
  | .local _ .vmem, ⟨0, _⟩ => ⟨S1x256x64, .f32⟩
  | .local _ .vmem, ⟨1, _⟩ => ⟨S1x256x64, .f32⟩
  | .local _ .vmem, ⟨2, _⟩ => ⟨S1x4096x64, .f32⟩
  | .local _ .vmem, ⟨3, _⟩ => ⟨S1x4096x64, .f32⟩
  | .local _ .vmem, ⟨4, _⟩ => ⟨S1x4096x64, .f32⟩
  | .local _ .vmem, ⟨5, _⟩ => ⟨S1x4096x64, .f32⟩
  | .local _ .vmem, ⟨6, _⟩ => ⟨S1x256x4096, .f32⟩
  | .local _ .vmem, ⟨7, _⟩ => ⟨S1x256x4096, .f32⟩
  | .local _ .vmem, ⟨8, _⟩ => ⟨S1x256x64, .f32⟩
  | .local _ .vmem, ⟨9, _⟩ => ⟨S1x256x64, .f32⟩
  | .local _ .vmem, ⟨10, _⟩ => ⟨S4096x64, .bf16⟩
  | .local _ .vmem, ⟨11, _⟩ => ⟨S4096x128, .bf16⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  bitsLt_bf16_f32 : FTy.bits .bf16 < FTy.bits .f32
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  packedbf16_S4096x64_S4096x64_0_0 : (Rect.unit (s := S4096x64) ![0, 0] S4096x64.size inb_S4096x64_S4096x64_0_0).PackedRows (EltTy.packing .bf16)
  concatenates_S4096x64_S4096x1_S4096x63_S4096x128_d1 : Shape.Concatenates [S4096x64, S4096x1, S4096x63] S4096x128 1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  packedbf16_S4096x128_S4096x128_0_0 : (Rect.unit (s := S4096x128) ![0, 0] S4096x128.size inb_S4096x128_S4096x128_0_0).PackedRows (EltTy.packing .bf16)
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  reduces_S256x4096_S256 : S256x4096.Reduces [1] S256
  shapeCasts_S256_S256x1 : S256.ShapeCasts S256x1
  broadcasts_S256x1_S256x4096 : S256x1.Broadcasts S256x4096
  slices_S256x128_o0_64_S256x1 : S256x128.Slices ![0, 64] S256x1
  slices_S256x128_o0_0_S256x64 : S256x128.Slices ![0, 0] S256x64
  broadcasts_S256x1_S256x64 : S256x1.Broadcasts S256x64
  shapeCasts_S256x64_S1x256x64 : S256x64.ShapeCasts S1x256x64
  dot_S256x64_S4096x64_S256x4096_1_1_0_0_n_n_wf : DotDims.WF S256x64 S4096x64 S256x4096 [1] [1] [0] [0] [] []
  dot_S256x4096_S4096x128_S256x128_1_0_0_1_n_n_wf : DotDims.WF S256x4096 S4096x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S4x4096x64.size a
  hwx0_0 : ∀ i : grid0.Coords, EltTy.bits .f32 = 32 ∨ (Rect.block (s := S4x4096x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S4x4096x64.size a
  hwx0_1 : ∀ i : grid0.Coords, EltTy.bits .f32 = 32 ∨ (Rect.block (s := S4x4096x64) S1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x64.size a ≤ S4x4096x64.size a
  hwx0_2 : ∀ i : grid0.Coords, EltTy.bits .f32 = 32 ∨ (Rect.block (s := S4x4096x64) S1x4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x4096.size a ≤ S4x4096x4096.size a
  hwx0_3 : ∀ i : grid0.Coords, EltTy.bits .f32 = 32 ∨ (Rect.block (s := S4x4096x4096) S1x256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x64.size a ≤ S4x4096x64.size a
  hwx0_4 : ∀ i : grid0.Coords, EltTy.bits .f32 = 32 ∨ (Rect.block (s := S4x4096x64) S1x256x64.size (cc0_transform_4 i) (hinb0_4 i)).WholeWords (EltTy.packing .f32)

variable [Facts₀]

def dot_S256x64_S4096x64_S256x4096_1_1_0_0_n_n : DotDims S256x64 S4096x64 S256x4096 where
  lhsContracting := [1]
  rhsContracting := [1]
  lhsNonContracting := [0]
  rhsNonContracting := [0]
  lhsBatch := []
  rhsBatch := []
  wf := dot_S256x64_S4096x64_S256x4096_1_1_0_0_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf

abbrev win0_0 : Pipeline.Window sig grid0 :=
  Pipeline.Window.ofSpec (Memref.whole main_arg0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x64 : Shape := ⟨3, ![4, 4096, 64]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S4x4096x64, .f32⟩
  | .hbm, ⟨3, _⟩ => ⟨S4x4096x4096, .f32⟩
  | .hbm, ⟨4, _⟩ => ⟨S4x4096x4096, .f32⟩
  | .hbm, ⟨5, _⟩ => ⟨S_, .f32⟩
  | .hbm, ⟨6, _⟩ => ⟨S4x4096x4096, .f32⟩
  | .hbm, ⟨7, _⟩ => ⟨S4x4096x4096, .f32⟩
  | .hbm, ⟨8, _⟩ => ⟨S4x4096x4096, .f32⟩
  | .hbm, ⟨9, _⟩ => ⟨S_, .f32⟩
  | .hbm, ⟨10, _⟩ => ⟨S4x4096, .f32⟩
  | .hbm, ⟨11, _⟩ => ⟨S_, .f32⟩
  | .hbm, ⟨12, _⟩ => ⟨S4x4096, .f32⟩
  | .hbm, ⟨13, _⟩ => ⟨S4x4096, .f32⟩
  | .hbm, ⟨14, _⟩ => ⟨S4x4096x1, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096, .f32⟩
  | .hbm, ⟨20, _⟩ => ⟨S4x4096x1, .f32⟩
  | .hbm, ⟨21, _⟩ => ⟨S4x4096x4096, .f32⟩
  | .hbm, ⟨22, _⟩ => ⟨S4x4096x4096, .f32⟩
  | .hbm, ⟨23, _⟩ => ⟨S4x4096x64, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.PointValue.lean ====
/-
  What one grid point's body leaves behind, as values.  At the first query tile of a batch the body stores the
  key block and the widened value block (values, a column of ones, zero padding) into the two carried
  scratch buffers, and then computes the output tile from the query tile, the mask tile and what it has just
  stored; at every later query tile of the batch it computes the output tile from the query tile, the mask tile
  and what the scratch buffers already hold, and leaves the scratch buffers alone.
-/
import proofs.«420499_j13314398617954_3_alg».proof.Proof.Gen.KernelIdeal.Frame
import Idealize.ShloMosaic.Lib.Pipeline.Value
import Idealize.ShloMosaic.Lib.Tactic

noncomputable section

namespace Cert.KernelIdeal.PointValue

open Cert.KernelIdeal Cert.KernelIdeal.Gen Idealize.ShloMosaic Idealize.ShloMosaic.TcCoe Idealize.SL.Sem

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- First tile of a batch: the key scratch ends holding the converted key block. -/
theorem keys_first (c : Dev nD) (i : grid0.Coords) (a2 : Memref sig .tc .vmem S1x256x64 .f32) (h2 : a2.IsWhole) (a3 : Memref sig .tc .vmem S1x4096x64 .f32) (h3 : a3.IsWhole) (a4 : Memref sig .tc .vmem S1x4096x64 .f32) (h4 : a4.IsWhole) (a5 : Memref sig .tc .vmem S1x256x4096 .f32) (h5 : a5.IsWhole) (a6 : Memref sig .tc .vmem S1x256x64 .f32) (h6 : a6.IsWhole) (a7 : Memref sig .tc .vmem S4096x64 .bf16) (h7 : a7.IsWhole) (a8 : Memref sig .tc .vmem S4096x128 .bf16) (h8 : a8.IsWhole) (hc : cond0_0 i)
    (x0 : Vec F S1x256x64 .f32) (x1 : Vec F S1x4096x64 .f32) (x2 : Vec F S1x4096x64 .f32) (x3 : Vec F S1x256x4096 .f32) :
    sout0_A_0 c i a2 h2 a3 h3 a4 h4 a5 h5 a6 h6 a7 h7 a8 h8 hc x0 x1 x2 x3 = k0_pay1 x1 := by
  unfold sout0_A_0
  rw [View.read_writes_eq_canon _ _ _ (scover0_A_0 c i a2 h2 a3 h3 a4 h4 a5 h5 a6 h6 a7 h7 a8 h8 hc x0 x1 x2 x3)]
  unfold kernelRun0_A
  dsimp only
  sl_unfold_words
  rw [View.canon_unit_zero hz2]
  simp only [View.readAt_eq_ld, h3.read_unread, View.ld_unit_zero (S := S1x4096x64) hz3]

/-- First tile of a batch: the value scratch ends holding the widened value block. -/
theorem values_first (c : Dev nD) (i : grid0.Coords) (a2 : Memref sig .tc .vmem S1x256x64 .f32) (h2 : a2.IsWhole) (a3 : Memref sig .tc .vmem S1x4096x64 .f32) (h3 : a3.IsWhole) (a4 : Memref sig .tc .vmem S1x4096x64 .f32) (h4 : a4.IsWhole) (a5 : Memref sig .tc .vmem S1x256x4096 .f32) (h5 : a5.IsWhole) (a6 : Memref sig .tc .vmem S1x256x64 .f32) (h6 : a6.IsWhole) (a7 : Memref sig .tc .vmem S4096x64 .bf16) (h7 : a7.IsWhole) (a8 : Memref sig .tc .vmem S4096x128 .bf16) (h8 : a8.IsWhole) (hc : cond0_0 i)
    (x0 : Vec F S1x256x64 .f32) (x1 : Vec F S1x4096x64 .f32) (x2 : Vec F S1x4096x64 .f32) (x3 : Vec F S1x256x4096 .f32) :
    sout0_A_1 c i a2 h2 a3 h3 a4 h4 a5 h5 a6 h6 a7 h7 a8 h8 hc x0 x1 x2 x3 = k0_pay2 x2 := by
  unfold sout0_A_1
  rw [View.read_writes_eq_canon _ _ _ (scover0_A_1 c i a2 h2 a3 h3 a4 h4 a5 h5 a6 h6 a7 h7 a8 h8 hc x0 x1 x2 x3)]
  unfold kernelRun0_A
  dsimp only
  sl_unfold_words
  rw [View.canon_unit_zero hz2]
  simp only [View.readAt_eq_ld, h4.read_unread, View.ld_unit_zero (S := S1x4096x64) hz3]

/-- First tile of a batch: the output tile is computed from the query tile, the mask tile and the two blocks just stored. -/
theorem out_first (c : Dev nD) (i : grid0.Coords) (a2 : Memref sig .tc .vmem S1x256x64 .f32) (h2 : a2.IsWhole) (a3 : Memref sig .tc .vmem S1x4096x64 .f32) (h3 : a3.IsWhole) (a4 : Memref sig .tc .vmem S1x4096x64 .f32) (h4 : a4.IsWhole) (a5 : Memref sig .tc .vmem S1x256x4096 .f32) (h5 : a5.IsWhole) (a6 : Memref sig .tc .vmem S1x256x64 .f32) (h6 : a6.IsWhole) (a7 : Memref sig .tc .vmem S4096x64 .bf16) (h7 : a7.IsWhole) (a8 : Memref sig .tc .vmem S4096x128 .bf16) (h8 : a8.IsWhole) (hc : cond0_0 i)
    (x0 : Vec F S1x256x64 .f32) (x1 : Vec F S1x4096x64 .f32) (x2 : Vec F S1x4096x64 .f32) (x3 : Vec F S1x256x4096 .f32) :
    out0_A_4 c i a2 h2 a3 h3 a4 h4 a5 h5 a6 h6 a7 h7 a8 h8 hc x0 x1 x2 x3 = k0_pay3 x0 (k0_pay1 x1) (k0_pay2 x2) x3 := by
  unfold out0_A_4
  rw [View.read_writes_eq_canon _ _ _ (cover0_A_4 c i a2 h2 a3 h3 a4 h4 a5 h5 a6 h6 a7 h7 a8 h8 hc x0 x1 x2 x3)]
  unfold kernelRun0_A
  dsimp only
  sl_unfold_words
  rw [View.canon_unit_zero hz3]
  simp only [View.readAt_eq_ld, h2.read_unread, h3.read_unread, h4.read_unread, h5.read_unread, View.ld_unit_zero (S := S1x4096x64) hz3,
    View.ld_unit_zero (S := S1x256x64) hz3, View.ld_unit_zero (S := S1x256x4096) hz3,
    View.readCov_unit_zero (S := S4096x64) _ hz2, View.readCov_unit_zero (S := S4096x128) _ hz2]

/-- Later tiles of a batch: the output tile is computed from the query tile, the mask tile and what the scratch buffers hold. -/
theorem out_later (c : Dev nD) (i : grid0.Coords) (a2 : Memref sig .tc .vmem S1x256x64 .f32) (h2 : a2.IsWhole) (a3 : Memref sig .tc .vmem S1x4096x64 .f32) (h3 : a3.IsWhole) (a4 : Memref sig .tc .vmem S1x4096x64 .f32) (h4 : a4.IsWhole) (a5 : Memref sig .tc .vmem S1x256x4096 .f32) (h5 : a5.IsWhole) (a6 : Memref sig .tc .vmem S1x256x64 .f32) (h6 : a6.IsWhole) (a7 : Memref sig .tc .vmem S4096x64 .bf16) (h7 : a7.IsWhole) (a8 : Memref sig .tc .vmem S4096x128 .bf16) (h8 : a8.IsWhole) (hc : ¬cond0_0 i)
    (x0 : Vec F S1x256x64 .f32) (x1 : Vec F S1x4096x64 .f32) (x2 : Vec F S1x4096x64 .f32) (x3 : Vec F S1x256x4096 .f32)
    (xs0 : Vec F S4096x64 .bf16) (xs1 : Vec F S4096x128 .bf16) :
    out0_B_4 c i a2 h2 a3 h3 a4 h4 a5 h5 a6 h6 a7 h7 a8 h8 hc x0 x1 x2 x3 xs0 xs1 = k0_pay3 x0 xs0 xs1 x3 := by
  unfold out0_B_4
  rw [View.read_writes_eq_canon _ _ _ (cover0_B_4 c i a2 h2 a3 h3 a4 h4 a5 h5 a6 h6 a7 h7 a8 h8 hc x0 x1 x2 x3 xs0 xs1)]
  unfold kernelRun0_B
  dsimp only
  sl_unfold_words
  rw [View.canon_unit_zero hz3]
  simp only [View.readAt_eq_ld, h2.read_unread, h5.read_unread, h7.read_unread, h8.read_unread,
    View.ld_unit_zero (S := S1x256x64) hz3, View.ld_unit_zero (S := S1x256x4096) hz3,
    View.ld_unit_zero (S := S4096x64) hz2, View.ld_unit_zero (S := S4096x128) hz2]

end Cert.KernelIdeal.PointValue

end
-- ==== Proof.Blocks.lean ====
/-
  The grid point t = 16·b + j works on batch b and query tile j (rows 256·j … 256·j + 255).  Its query and mask
  windows hold those rows of batch b; its key and value windows hold all of batch b, whatever j is.  The two carried
  scratch buffers are written at j = 0 from the key and value windows and kept for j > 0, so after every point of batch b
  they hold the converted key block and the widened value block OF BATCH b; and the output tile every point leaves is
  the tile computed from the query and mask rows of (b, j) and those two blocks.
-/
import proofs.«420499_j13314398617954_3_alg».proof.Proof.PointValue
import Idealize.ShloMosaic.Lib.ValueIdx

noncomputable section

namespace Cert.KernelIdeal.Blocks

open Cert.KernelIdeal Cert.KernelIdeal.Gen Cert.KernelIdeal.PointValue Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The printed index maps over the grid: batch = t / 16 for every window; query tile = t % 16 for the query, mask and
    output windows; block 0 on every other axis. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = 0 ∧ win0_2.index t (2 : Fin 3) = 0
    ∧ win0_3.index t (0 : Fin 3) = t.val / 16 ∧ win0_3.index t (1 : Fin 3) = t.val % 16 ∧ win0_3.index t (2 : Fin 3) = 0
    ∧ win0_4.index t (0 : Fin 3) = t.val / 16 ∧ win0_4.index t (1 : Fin 3) = t.val % 16 ∧ win0_4.index t (2 : Fin 3) = 0 :=
  (by decide +kernel : ∀ t : Fin grid0.N, _)

theorem lt64 (t : Fin cfg0.N) : t.val < 64 := lt_of_lt_of_eq t.isLt (show cfg0.N = 64 from N_0)

/-- The batch a grid point works on. -/
def batchOf (t : Fin cfg0.N) : Fin 4 := ⟨t.val / 16, by have := lt64 t; omega⟩
/-- The query tile a grid point works on. -/
def tileOf (t : Fin cfg0.N) : Fin 16 := ⟨t.val % 16, by omega⟩

/-- Rows 256·j … of batch b of a [4, 4096, n] array, as a [1, 256, n] block. -/
def rowsBlock {n : Nat} (A : (⟨3, ![4, 4096, n]⟩ : Shape).Idx → Elt F .f32) (b : Fin 4) (j : Fin 16) :
    (⟨3, ![1, 256, n]⟩ : Shape).Idx → Elt F .f32 :=
  fun y => A (ix3 b (⟨256 * j.val + (y 1).val, by have h1 : (y 1).val < 256 := (y 1).isLt; have := j.isLt; omega⟩ : Fin 4096)
    (⟨(y 2).val, (y 2).isLt⟩ : Fin n))

/-- All of batch b of a [4, 4096, 64] array, as a [1, 4096, 64] block. -/
def batchBlock (A : S4x4096x64.Idx → Elt F .f32) (b : Fin 4) : Vec F S1x4096x64 .f32 :=
  fun y => A (ix3 b (⟨(y 1).val, (y 1).isLt⟩ : Fin 4096) (⟨(y 2).val, (y 2).isLt⟩ : Fin 64))

/-- The query window at point t holds the query rows of (batch, tile). -/
theorem q_block (c : Dev nD) (t : Fin cfg0.N) :
    (iblk m c 0 t : Vec F S1x256x64 .f32) = rowsBlock (V m c main_arg0) (batchOf t) (tileOf t) := by
  obtain ⟨e0, e1, e2, -⟩ := idx_facts t
  funext y
  unfold iblk rowsBlock
  rw [View.read_apply]
  show V m c main_arg0 _ = V m c main_arg0 _
  refine congrArg (V m c main_arg0) (funext fun a => Fin.ext ?_)
  have h0 : (y 0).val < 1 := (y 0).isLt
  match a with
  | ⟨0, _⟩ => show win0_0.index t (0 : Fin 3) * 1 + 1 * (y 0).val = t.val / 16; omega
  | ⟨1, _⟩ => show win0_0.index t (1 : Fin 3) * 256 + 1 * (y 1).val = 256 * (t.val % 16) + (y 1).val; omega
  | ⟨2, _⟩ => show win0_0.index t (2 : Fin 3) * 64 + 1 * (y 2).val = (y 2).val; omega

/-- The mask window at point t holds the mask rows of (batch, tile). -/
theorem m_block (c : Dev nD) (t : Fin cfg0.N) :
    (iblk m c 3 t : Vec F S1x256x4096 .f32) = rowsBlock (V m c main_arg3) (batchOf t) (tileOf t) := by
  obtain ⟨-, -, -, -, -, -, -, -, -, e0, e1, e2, -⟩ := idx_facts t
  funext y
  unfold iblk rowsBlock
  rw [View.read_apply]
  show V m c main_arg3 _ = V m c main_arg3 _
  refine congrArg (V m c main_arg3) (funext fun a => Fin.ext ?_)
  have h0 : (y 0).val < 1 := (y 0).isLt
  match a with
  | ⟨0, _⟩ => show win0_3.index t (0 : Fin 3) * 1 + 1 * (y 0).val = t.val / 16; omega
  | ⟨1, _⟩ => show win0_3.index t (1 : Fin 3) * 256 + 1 * (y 1).val = 256 * (t.val % 16) + (y 1).val; omega
  | ⟨2, _⟩ => show win0_3.index t (2 : Fin 3) * 4096 + 1 * (y 2).val = (y 2).val; omega

/-- The key window at point t holds batch (t / 16) of the keys. -/
theorem k_block (c : Dev nD) (t : Fin cfg0.N) :
    (iblk m c 1 t : Vec F S1x4096x64 .f32) = batchBlock (V m c main_arg1) (batchOf t) := by
  obtain ⟨-, -, -, e0, e1, e2, -⟩ := idx_facts t
  funext y
  unfold iblk batchBlock
  rw [View.read_apply]
  show V m c main_arg1 _ = V m c main_arg1 _
  refine congrArg (V m c main_arg1) (funext fun a => Fin.ext ?_)
  have h0 : (y 0).val < 1 := (y 0).isLt
  match a with
  | ⟨0, _⟩ => show win0_1.index t (0 : Fin 3) * 1 + 1 * (y 0).val = t.val / 16; omega
  | ⟨1, _⟩ => show win0_1.index t (1 : Fin 3) * 4096 + 1 * (y 1).val = (y 1).val; omega
  | ⟨2, _⟩ => show win0_1.index t (2 : Fin 3) * 64 + 1 * (y 2).val = (y 2).val; omega

/-- The value window at point t holds batch (t / 16) of the values. -/
theorem v_block (c : Dev nD) (t : Fin cfg0.N) :
    (iblk m c 2 t : Vec F S1x4096x64 .f32) = batchBlock (V m c main_arg2) (batchOf t) := by
  obtain ⟨-, -, -, -, -, -, e0, e1, e2, -⟩ := idx_facts t
  funext y
  unfold iblk batchBlock
  rw [View.read_apply]
  show V m c main_arg2 _ = V m c main_arg2 _
  refine congrArg (V m c main_arg2) (funext fun a => Fin.ext ?_)
  have h0 : (y 0).val < 1 := (y 0).isLt
  match a with
  | ⟨0, _⟩ => show win0_2.index t (0 : Fin 3) * 1 + 1 * (y 0).val = t.val / 16; omega
  | ⟨1, _⟩ => show win0_2.index t (1 : Fin 3) * 4096 + 1 * (y 1).val = (y 1).val; omega
  | ⟨2, _⟩ => show win0_2.index t (2 : Fin 3) * 64 + 1 * (y 2).val = (y 2).val; omega

/-- What the two carried scratch buffers hold after any point: the converted key block and the widened value block
    of the point's batch — stored at the batch's first tile, kept at the others. -/
theorem carried (c : Dev nD) : ∀ (n : ℕ) (h : n < cfg0.N),
    (outsAt0 m c n h).2.1 = k0_pay1 (batchBlock (V m c main_arg1) (batchOf ⟨n, h⟩))
    ∧ (outsAt0 m c n h).2.2 = k0_pay2 (batchBlock (V m c main_arg2) (batchOf ⟨n, h⟩))
  | 0, h => by
    rw [outsAt0_A m c ⟨0, h⟩ rfl]
    dsimp only
    rw [keys_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) ((hcond0_0 ⟨0, h⟩).mpr rfl) (iblk m c 0 ⟨0, h⟩) (iblk m c 1 ⟨0, h⟩) (iblk m c 2 ⟨0, h⟩) (iblk m c 3 ⟨0, h⟩),
      values_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) ((hcond0_0 ⟨0, h⟩).mpr rfl) (iblk m c 0 ⟨0, h⟩) (iblk m c 1 ⟨0, h⟩) (iblk m c 2 ⟨0, h⟩) (iblk m c 3 ⟨0, h⟩),
      k_block m c ⟨0, h⟩, v_block m c ⟨0, h⟩]
    exact ⟨rfl, rfl⟩
  | n + 1, h => by
    by_cases h0 : (n + 1) % 16 = 0
    · rw [outsAt0_A m c ⟨n + 1, h⟩ h0]
      dsimp only
      rw [keys_first c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) ((hcond0_0 ⟨n + 1, h⟩).mpr h0) (iblk m c 0 ⟨n + 1, h⟩) (iblk m c 1 ⟨n + 1, h⟩) (iblk m c 2 ⟨n + 1, h⟩) (iblk m c 3 ⟨n + 1, h⟩),
        values_first c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) ((hcond0_0 ⟨n + 1, h⟩).mpr h0) (iblk m c 0 ⟨n + 1, h⟩) (iblk m c 1 ⟨n + 1, h⟩) (iblk m c 2 ⟨n + 1, h⟩) (iblk m c 3 ⟨n + 1, h⟩),
        k_block m c ⟨n + 1, h⟩, v_block m c ⟨n + 1, h⟩]
      exact ⟨rfl, rfl⟩
    · have ih := carried c n (Nat.lt_of_succ_lt h)
      have hb : batchOf (⟨n + 1, h⟩ : Fin cfg0.N) = batchOf ⟨n, Nat.lt_of_succ_lt h⟩ := Fin.ext (by
        show (n + 1) / 16 = n / 16
        omega)
      rw [outsAt0_B m c ⟨n + 1, h⟩ h0]
      dsimp only
      unfold sout0_B_0 sout0_B_1
      rw [hb]
      exact ih

/-- The output tile every point leaves: computed from the query and mask rows of its (batch, tile) and the key and
    widened value blocks of its batch. -/
theorem out_at (c : Dev nD) (t : Fin cfg0.N) :
    (outsAt0 m c t.val t.isLt).1
      = k0_pay3 (rowsBlock (V m c main_arg0) (batchOf t) (tileOf t)) (k0_pay1 (batchBlock (V m c main_arg1) (batchOf t)))
          (k0_pay2 (batchBlock (V m c main_arg2) (batchOf t))) (rowsBlock (V m c main_arg3) (batchOf t) (tileOf t)) := by
  by_cases h0 : t.val % 16 = 0
  · rw [outsAt0_A m c t h0]
    dsimp only
    rw [out_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t),
      q_block m c t, k_block m c t, v_block m c t, m_block m c t]
  · have hpos : 0 < t.val := by omega
    have hlt : t.val - 1 < cfg0.N := Nat.lt_of_le_of_lt (Nat.sub_le _ _) t.isLt
    have ih := carried m c (t.val - 1) hlt
    have hb : batchOf (⟨t.val - 1, hlt⟩ : Fin cfg0.N) = batchOf t := Fin.ext (by
      show (t.val - 1) / 16 = t.val / 16
      omega)
    rw [outsAt0_B m c t h0]
    dsimp only
    rw [out_later c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (iblk m c 3 t) _ _,
      ih.1, ih.2, hb, q_block m c t, m_block m c t]

end Cert.KernelIdeal.Blocks

end
-- ==== Proof.TileOps.lean ====
/-
  One output tile of the attention kernel, read entry by entry over the extended reals.
  For query row p of the tile and key s the score is  Σ_e (q[p,e] · c) · k[s,e] + mask[p,s]  (c the scale 2⁻⁶);
  the row maximum is the fold of max over the keys from the pattern of −∞; the weights are exp(score − maximum);
  the product of the weights with the widened value block gives, in column d < 64, the weighted sum of value column d
  and, in column 64, the weighted sum of that column (which the caller stores as a column of ones); the tile's
  entry (p, d) is the quotient of the two.
-/
import proofs.«420499_j13314398617954_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-! ## The two matrix products at an entry -/

theorem lhs_qk_0 (i : S256x4096.Idx) (q : dot_S256x64_S4096x64_S256x4096_1_1_0_0_n_n.contr.Idx) :
    (dot_S256x64_S4096x64_S256x4096_1_1_0_0_n_n.lhsIdx i q 0).val = (i 0).val := by
  unfold DotDims.lhsIdx
  rw [dif_neg (show ¬(0 : Fin S256x64.rank) ∈ dot_S256x64_S4096x64_S256x4096_1_1_0_0_n_n.lhsBatch by decide), dif_pos (show (0 : Fin S256x64.rank) ∈ dot_S256x64_S4096x64_S256x4096_1_1_0_0_n_n.lhsNonContracting by decide)]
  rfl
theorem lhs_qk_1 (i : S256x4096.Idx) (q : dot_S256x64_S4096x64_S256x4096_1_1_0_0_n_n.contr.Idx) :
    (dot_S256x64_S4096x64_S256x4096_1_1_0_0_n_n.lhsIdx i q 1).val = (q ⟨0, by decide⟩).val :=
  dot_S256x64_S4096x64_S256x4096_1_1_0_0_n_n.lhsIdx_val_of_single rfl i q
theorem rhs_qk_0 (i : S256x4096.Idx) (q : dot_S256x64_S4096x64_S256x4096_1_1_0_0_n_n.contr.Idx) :
    (dot_S256x64_S4096x64_S256x4096_1_1_0_0_n_n.rhsIdx i q 0).val = (i 1).val := by
  unfold DotDims.rhsIdx
  rw [dif_neg (show ¬(0 : Fin S4096x64.rank) ∈ dot_S256x64_S4096x64_S256x4096_1_1_0_0_n_n.rhsBatch by decide), dif_pos (show (0 : Fin S4096x64.rank) ∈ dot_S256x64_S4096x64_S256x4096_1_1_0_0_n_n.rhsNonContracting by decide)]
  rfl
theorem rhs_qk_1 (i : S256x4096.Idx) (q : dot_S256x64_S4096x64_S256x4096_1_1_0_0_n_n.contr.Idx) :
    (dot_S256x64_S4096x64_S256x4096_1_1_0_0_n_n.rhsIdx i q 1).val = (q ⟨0, by decide⟩).val :=
  dot_S256x64_S4096x64_S256x4096_1_1_0_0_n_n.rhsIdx_val_of_single rfl i q

/-- Query rows times key rows, contracted over the 64 features. -/
theorem qk_apply (a : FVec Ideal S256x64 .bf16) (b : FVec Ideal S4096x64 .bf16) (p : Fin 256) (s : Fin 4096) :
    matmul dot_S256x64_S4096x64_S256x4096_1_1_0_0_n_n none a b (constant (F := Ideal) S256x4096 .f32 0x00000000#32) (ix2 p s)
      = ∑ e : Fin 64, a (ix2 p e) * b (ix2 s e) := by
  simp only [matmul]
  rw [Ideal.matmul_constant_zero_apply, ← Equiv.sum_comp (contrEquiv1 dot_S256x64_S4096x64_S256x4096_1_1_0_0_n_n 64 rfl rfl).symm]
  refine Finset.sum_congr rfl fun k _ => ?_
  have hk := contrEquiv1_symm_val dot_S256x64_S4096x64_S256x4096_1_1_0_0_n_n 64 rfl rfl k
  have el : dot_S256x64_S4096x64_S256x4096_1_1_0_0_n_n.lhsIdx (ix2 p s) ((contrEquiv1 dot_S256x64_S4096x64_S256x4096_1_1_0_0_n_n 64 rfl rfl).symm k) = ix2 p k := funext fun a => Fin.ext (by
    match a with
    | ⟨0, _⟩ => exact lhs_qk_0 _ _
    | ⟨1, _⟩ => exact (lhs_qk_1 _ _).trans hk)
  have er : dot_S256x64_S4096x64_S256x4096_1_1_0_0_n_n.rhsIdx (ix2 p s) ((contrEquiv1 dot_S256x64_S4096x64_S256x4096_1_1_0_0_n_n 64 rfl rfl).symm k) = ix2 s k := funext fun a => Fin.ext (by
    match a with
    | ⟨0, _⟩ => exact rhs_qk_0 _ _
    | ⟨1, _⟩ => exact (rhs_qk_1 _ _).trans hk)
  rw [el, er]

theorem lhs_pv_0 (i : S256x128.Idx) (q : dot_S256x4096_S4096x128_S256x128_1_0_0_1_n_n.contr.Idx) :
    (dot_S256x4096_S4096x128_S256x128_1_0_0_1_n_n.lhsIdx i q 0).val = (i 0).val := by
  unfold DotDims.lhsIdx
  rw [dif_neg (show ¬(0 : Fin S256x4096.rank) ∈ dot_S256x4096_S4096x128_S256x128_1_0_0_1_n_n.lhsBatch by decide), dif_pos (show (0 : Fin S256x4096.rank) ∈ dot_S256x4096_S4096x128_S256x128_1_0_0_1_n_n.lhsNonContracting by decide)]
  rfl
theorem lhs_pv_1 (i : S256x128.Idx) (q : dot_S256x4096_S4096x128_S256x128_1_0_0_1_n_n.contr.Idx) :
    (dot_S256x4096_S4096x128_S256x128_1_0_0_1_n_n.lhsIdx i q 1).val = (q ⟨0, by decide⟩).val :=
  dot_S256x4096_S4096x128_S256x128_1_0_0_1_n_n.lhsIdx_val_of_single rfl i q
theorem rhs_pv_0 (i : S256x128.Idx) (q : dot_S256x4096_S4096x128_S256x128_1_0_0_1_n_n.contr.Idx) :
    (dot_S256x4096_S4096x128_S256x128_1_0_0_1_n_n.rhsIdx i q 0).val = (q ⟨0, by decide⟩).val :=
  dot_S256x4096_S4096x128_S256x128_1_0_0_1_n_n.rhsIdx_val_of_single rfl i q
theorem rhs_pv_1 (i : S256x128.Idx) (q : dot_S256x4096_S4096x128_S256x128_1_0_0_1_n_n.contr.Idx) :
    (dot_S256x4096_S4096x128_S256x128_1_0_0_1_n_n.rhsIdx i q 1).val = (i 1).val := by
  unfold DotDims.rhsIdx
  rw [dif_neg (show ¬(1 : Fin S4096x128.rank) ∈ dot_S256x4096_S4096x128_S256x128_1_0_0_1_n_n.rhsBatch by decide), dif_pos (show (1 : Fin S4096x128.rank) ∈ dot_S256x4096_S4096x128_S256x128_1_0_0_1_n_n.rhsNonContracting by decide)]
  rfl

/-- Weights times the widened value block, contracted over the 4096 keys. -/
theorem pv_apply (a : FVec Ideal S256x4096 .bf16) (b : FVec Ideal S4096x128 .bf16) (p : Fin 256) (j : Fin 128) :
    matmul dot_S256x4096_S4096x128_S256x128_1_0_0_1_n_n none a b (constant (F := Ideal) S256x128 .f32 0x00000000#32) (ix2 p j)
      = ∑ s : Fin 4096, a (ix2 p s) * b (ix2 s j) := by
  simp only [matmul]
  rw [Ideal.matmul_constant_zero_apply, ← Equiv.sum_comp (contrEquiv1 dot_S256x4096_S4096x128_S256x128_1_0_0_1_n_n 4096 rfl rfl).symm]
  refine Finset.sum_congr rfl fun k _ => ?_
  have hk := contrEquiv1_symm_val dot_S256x4096_S4096x128_S256x128_1_0_0_1_n_n 4096 rfl rfl k
  have el : dot_S256x4096_S4096x128_S256x128_1_0_0_1_n_n.lhsIdx (ix2 p j) ((contrEquiv1 dot_S256x4096_S4096x128_S256x128_1_0_0_1_n_n 4096 rfl rfl).symm k) = ix2 p k := funext fun a => Fin.ext (by
    match a with
    | ⟨0, _⟩ => exact lhs_pv_0 _ _
    | ⟨1, _⟩ => exact (lhs_pv_1 _ _).trans hk)
  have er : dot_S256x4096_S4096x128_S256x128_1_0_0_1_n_n.rhsIdx (ix2 p j) ((contrEquiv1 dot_S256x4096_S4096x128_S256x128_1_0_0_1_n_n 4096 rfl rfl).symm k) = ix2 k j := funext fun a => Fin.ext (by
    match a with
    | ⟨0, _⟩ => exact (rhs_pv_0 _ _).trans hk
    | ⟨1, _⟩ => exact rhs_pv_1 _ _)
  rw [el, er]

/-! ## The row maximum, kept as a column and spread back over the row -/

/-- The maximum of row p over the keys: the fold of max from the accumulator's pattern. -/
theorem rowmax_apply (x : FVec Ideal S256x4096 .f32) (p : Fin 256) :
    multiReduction .maximumf [1] S256 x 0xFF800000#32 reduces_S256x4096_S256 (.inl rfl) rfl (ix1 p)
      = (Finset.univ : Finset (Fin 4096)).fold max (Ideal.ofBits .f32 0xFF800000#32) (fun s => x (ix2 p s)) := by
  refine (Ideal.multiReduction_maximumf_single x 0xFF800000#32 reduces_S256x4096_S256 (.inl rfl) rfl (ix1 p)).trans ?_
  refine congrArg (fun f => Finset.fold max (Ideal.ofBits .f32 0xFF800000#32) f (Finset.univ : Finset (Fin 4096))) ?_
  funext k
  exact congrArg x (funext fun a => Fin.ext (by match a with | ⟨0, _⟩ => rfl | ⟨1, _⟩ => rfl))

/-- A length-256 vector viewed as a column. -/
theorem column_apply {α : Type} (v : S256.Idx → α) (p : Fin 256) (z : Fin 1) :
    shapeCast S256x1 v shapeCasts_S256_S256x1 (ix2 p z) = v (ix1 p) :=
  shapeCast_apply v shapeCasts_S256_S256x1 _ _ (by
    have hz : z.val = 0 := by omega
    rw [Shape.rowMajor_val_one, Shape.rowMajor_val_two]
    show p.val = p.val * 1 + z.val
    omega)

/-- A column spread over the 4096 keys. -/
theorem spread_keys_apply {α : Type} (v : S256x1.Idx → α) (p : Fin 256) (s : Fin 4096) :
    broadcastTo S256x4096 v broadcasts_S256x1_S256x4096 (ix2 p s) = v (ix2 p (0 : Fin 1)) :=
  broadcastTo_apply v broadcasts_S256x1_S256x4096 _ _ (fun a => by
    match a with
    | ⟨0, _⟩ => show p.val = if (256 : Nat) = 1 then 0 else p.val; rw [if_neg (by decide)]
    | ⟨1, _⟩ => show 0 = if (1 : Nat) = 1 then 0 else s.val; rw [if_pos rfl])

/-- A column spread over the 64 output features. -/
theorem spread_feat_apply {α : Type} (v : S256x1.Idx → α) (p : Fin 256) (d : Fin 64) :
    broadcastTo S256x64 v broadcasts_S256x1_S256x64 (ix2 p d) = v (ix2 p (0 : Fin 1)) :=
  broadcastTo_apply v broadcasts_S256x1_S256x64 _ _ (fun a => by
    match a with
    | ⟨0, _⟩ => show p.val = if (256 : Nat) = 1 then 0 else p.val; rw [if_neg (by decide)]
    | ⟨1, _⟩ => show 0 = if (1 : Nat) = 1 then 0 else d.val; rw [if_pos rfl])

/-- Column 64 of the 128-wide product, as a column. -/
theorem col64_apply {α : Type} (v : S256x128.Idx → α) (p : Fin 256) (z : Fin 1) :
    extractStridedSlice S256x1 ![0, 64] v slices_S256x128_o0_64_S256x1 (ix2 p z) = v (ix2 p (64 : Fin 128)) :=
  extractStridedSlice_apply _ v slices_S256x128_o0_64_S256x1 _ _ (fun a => by
    have hz : z.val = 0 := by omega
    match a with
    | ⟨0, _⟩ => show p.val = 0 + p.val; omega
    | ⟨1, _⟩ => show 64 = 64 + z.val; omega)

/-- The first 64 columns of the 128-wide product. -/
theorem cols_apply {α : Type} (v : S256x128.Idx → α) (p : Fin 256) (d : Fin 64) :
    extractStridedSlice S256x64 ![0, 0] v slices_S256x128_o0_0_S256x64 (ix2 p d) = v (ix2 p (Fin.castLE (by decide) d : Fin 128)) :=
  extractStridedSlice_apply _ v slices_S256x128_o0_0_S256x64 _ _ (fun a => by
    match a with
    | ⟨0, _⟩ => show p.val = 0 + p.val; omega
    | ⟨1, _⟩ => show d.val = 0 + d.val; omega)

end Cert.KernelIdeal.Tile

end
-- ==== Proof.TileValue.lean ====
/-
  The whole tile entry: for query row p and output feature d,
    tile[p, d] = (Σ_s w[p,s] · vw[s, d]) / (Σ_s w[p,s] · vw[s, 64]),   w[p,s] = exp(score[p,s] − max_s' score[p,s']),
  where vw is the 128-wide value block the kernel carries (value columns, then a column of ones).
-/
import proofs.«420499_j13314398617954_3_alg».proof.Proof.TileOps

noncomputable section

namespace Cert.KernelIdeal.Tile

open Cert.KernelIdeal Cert.KernelIdeal.Gen Idealize.ShloMosaic Idealize.ShloMosaic.ValueIdx

/-- The score of key s for query row p of the tile: the scaled query row against the key row, plus the mask entry. -/
def tileScore (xq : FVec Ideal S1x256x64 .f32) (xk : FVec Ideal S4096x64 .bf16) (xm : FVec Ideal S1x256x4096 .f32)
    (p : Fin 256) (s : Fin 4096) : EReal :=
  (∑ e : Fin 64, (xq (ix3 (0 : Fin 1) p e) * Ideal.ofBits .f32 0x3C800000#32) * xk (ix2 s e)) + xm (ix3 (0 : Fin 1) p s)

/-- The scores of a tile at an entry. -/
theorem scores_apply (xq : FVec Ideal S1x256x64 .f32) (xk : FVec Ideal S4096x64 .bf16) (xm : FVec Ideal S1x256x4096 .f32)
    (p : Fin 256) (s : Fin 4096) :
    addf (matmul dot_S256x64_S4096x64_S256x4096_1_1_0_0_n_n none
        (truncf .bf16 (mulf (shapeCast S256x64 xq shapeCasts_S1x256x64_S256x64) (broadcast S256x64 (Scalar.ofBits (F := Ideal) .f32 0x3C800000#32))) bitsLt_bf16_f32)
        xk (constant (F := Ideal) S256x4096 .f32 0x00000000#32))
      (shapeCast S256x4096 xm shapeCasts_S1x256x4096_S256x4096) (ix2 p s) = tileScore xq xk xm p s := by
  rw [addf_apply, qk_apply, shapeCast_1ab_ab_apply]
  unfold tileScore
  refine congrArg (· + xm (ix3 (0 : Fin 1) p s)) (Finset.sum_congr rfl fun e _ => ?_)
  rw [truncf_apply, mulf_apply, shapeCast_1ab_ab_apply]
  rfl

/-- The weights of a tile at an entry: exp of the score minus the row's maximum. -/
theorem weights_apply (S : FVec Ideal S256x4096 .f32) (p : Fin 256) (s : Fin 4096) :
    truncf .bf16 (exp (subf S (broadcastTo S256x4096 (shapeCast S256x1
        (multiReduction .maximumf [1] S256 S 0xFF800000#32 reduces_S256x4096_S256 (.inl rfl) rfl) shapeCasts_S256_S256x1)
        broadcasts_S256x1_S256x4096))) bitsLt_bf16_f32 (ix2 p s)
      = Ideal.exp (S (ix2 p s) - (Finset.univ : Finset (Fin 4096)).fold max (Ideal.ofBits .f32 0xFF800000#32) (fun s' => S (ix2 p s'))) := by
  rw [truncf_apply]
  show Ideal.exp (S (ix2 p s) - broadcastTo S256x4096 _ broadcasts_S256x1_S256x4096 (ix2 p s)) = _
  rw [spread_keys_apply, column_apply, rowmax_apply]

/-- The tile's entry (p, d). -/
theorem tile_apply (xq : FVec Ideal S1x256x64 .f32) (xk : FVec Ideal S4096x64 .bf16) (xv : FVec Ideal S4096x128 .bf16)
    (xm : FVec Ideal S1x256x4096 .f32) (u : Fin 1) (p : Fin 256) (d : Fin 64) :
    k0_pay3 (F := Ideal) xq xk xv xm (ix3 u p d)
      = Ideal.div
          (∑ s : Fin 4096, Ideal.exp (tileScore xq xk xm p s
              - (Finset.univ : Finset (Fin 4096)).fold max (Ideal.ofBits .f32 0xFF800000#32) (fun s' => tileScore xq xk xm p s'))
            * xv (ix2 s (Fin.castLE (by decide) d : Fin 128)))
          (∑ s : Fin 4096, Ideal.exp (tileScore xq xk xm p s
              - (Finset.univ : Finset (Fin 4096)).fold max (Ideal.ofBits .f32 0xFF800000#32) (fun s' => tileScore xq xk xm p s'))
            * xv (ix2 s (64 : Fin 128))) := by
  unfold k0_pay3
  refine (shapeCast_ab_1ab_apply _ _ u p d).trans ?_
  rw [divf_apply, cols_apply, spread_feat_apply, col64_apply, pv_apply, pv_apply]
  refine congrArg₂ Ideal.div (Finset.sum_congr rfl fun s _ => ?_) (Finset.sum_congr rfl fun s _ => ?_)
  · rw [weights_apply]
    simp only [scores_apply]
  · rw [weights_apply]
    simp only [scores_apply]

end Cert.KernelIdeal.Tile

end
-- ==== Proof.SoftmaxAlgebra.lean ====
/-
  The algebra of one attention row over the extended reals, when every input is a real number.

  For a query row q, keys k and an additive mask b, the score of key s is the real number
  (Σ_e q_e · k_{s,e}) · c + b_s; it does not matter whether the scale c multiplies the query
  entries before the inner product or the inner product afterwards, and because every term is
  a real number the extended-real sums are the coercions of the real sums.

  The maximum of finitely many (at least one) real scores, computed as a fold of max starting
  from −∞, is a real number: after the first element the running value is real and max of two
  reals is real.

  The softmax-weighted average of values v under logits x is (Σ_s e^{x_s} v_s) / (Σ_s e^{x_s}).
  Subtracting any real a from every logit multiplies numerator and denominator by e^{−a}, which
  cancels, and the denominator is a positive real, so extended-real division by it is the real
  division.  Hence "sum the unnormalized weights e^{x_s − a} times values, then divide by the
  sum of the weights" and "divide each weight by the sum of the weights, multiply by its value,
  then sum" both equal the softmax-weighted average.
-/
import Idealize.ShloMosaic.PureOps.Ideal
import Mathlib.Data.EReal.Basic
import Mathlib.Data.EReal.Operations
import Mathlib.Data.EReal.Inv
import Mathlib.Data.Finset.Fold
import Mathlib.Algebra.BigOperators.Field
import Mathlib.Algebra.Order.BigOperators.Group.Finset
import Mathlib.Analysis.SpecialFunctions.Exp
import Mathlib.Tactic.FieldSimp
import Mathlib.Tactic.Ring

noncomputable section

namespace Cert.SoftmaxAlgebra

open Idealize.ShloMosaic

variable {ι κ : Type} [Fintype ι] [Fintype κ]

/-- The coercion of reals into the extended reals commutes with finite sums. -/
theorem coe_sum (s : Finset κ) (f : κ → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The score of key `s` for one query row: the inner product scaled by `c`, plus the mask entry. -/
def score (c : ℝ) (q : ι → ℝ) (k : κ → ι → ℝ) (b : κ → ℝ) (s : κ) : ℝ := (∑ e, q e * k s e) * c + b s

/-- Scaling the query before the inner product gives the score. -/
theorem score_of_scaled_query (c : ℝ) (q : ι → ℝ) (k : κ → ι → ℝ) (b : κ → ℝ) (s : κ) :
    (∑ e, ((q e : EReal) * (c : EReal)) * (k s e : EReal)) + (b s : EReal) = ((score c q k b s : ℝ) : EReal) := by
  -- every summand is the coercion of the real product q_e · c · k_{s,e}
  have h : ∀ e, ((q e : EReal) * (c : EReal)) * (k s e : EReal) = ((q e * c * k s e : ℝ) : EReal) := by
    intro e; rw [EReal.coe_mul, EReal.coe_mul]
  simp only [h]
  rw [← coe_sum, ← EReal.coe_add, score, Finset.sum_mul]
  congr 2
  exact Finset.sum_congr rfl (fun e _ => by ring)

/-- Scaling the inner product afterwards gives the score. -/
theorem score_of_scaled_product (c : ℝ) (q : ι → ℝ) (k : κ → ι → ℝ) (b : κ → ℝ) (s : κ) :
    (∑ e, (q e : EReal) * (k s e : EReal)) * (c : EReal) + (b s : EReal) = ((score c q k b s : ℝ) : EReal) := by
  have h : ∀ e, (q e : EReal) * (k s e : EReal) = ((q e * k s e : ℝ) : EReal) := by
    intro e; rw [EReal.coe_mul]
  simp only [h]
  rw [← coe_sum, ← EReal.coe_mul, ← EReal.coe_add, score]

/-- Folding max from −∞ over a finite set of reals gives −∞ or a real. -/
private theorem fold_max_bot_or_real (x : κ → ℝ) (t : Finset κ) :
    t.fold max (⊥ : EReal) (fun s => (x s : EReal)) = ⊥ ∨
      ∃ a : ℝ, t.fold max (⊥ : EReal) (fun s => (x s : EReal)) = (a : EReal) := by
  classical
  induction t using Finset.induction_on with
  | empty => left; simp
  | insert i t hi ih =>
    right
    rw [Finset.fold_insert hi]
    rcases ih with h | ⟨r, h⟩
    · exact ⟨x i, by rw [h, max_eq_left bot_le]⟩
    · rw [h]
      rcases le_total (x i : EReal) (r : EReal) with h' | h'
      · exact ⟨r, max_eq_right h'⟩
      · exact ⟨x i, max_eq_left h'⟩

/-- The maximum of finitely many (at least one) reals, folded from −∞ in the extended reals, is a real. -/
theorem rowMax_real [Nonempty κ] (x : κ → ℝ) :
    ∃ a : ℝ, (Finset.univ : Finset κ).fold max (⊥ : EReal) (fun s => (x s : EReal)) = (a : EReal) := by
  classical
  obtain ⟨i⟩ := (inferInstance : Nonempty κ)
  -- split off one element: the fold over the rest is −∞ or real, and max with a real is real
  rw [← Finset.insert_erase (Finset.mem_univ i), Finset.fold_insert (Finset.notMem_erase i _)]
  rcases fold_max_bot_or_real x (Finset.univ.erase i) with h | ⟨r, h⟩
  · exact ⟨x i, by rw [h, max_eq_left bot_le]⟩
  · rw [h]
    rcases le_total (x i : EReal) (r : EReal) with h' | h'
    · exact ⟨r, max_eq_right h'⟩
    · exact ⟨x i, max_eq_left h'⟩

/-- The softmax-weighted average of `v` under logits `x`. -/
def softAvg (x v : κ → ℝ) : ℝ := (∑ s, Real.exp (x s) * v s) / (∑ s, Real.exp (x s))

/-- The sum of the shifted weights is positive. -/
private theorem sum_exp_pos [Nonempty κ] (x : κ → ℝ) (a : ℝ) : 0 < ∑ s, Real.exp (x s - a) :=
  Finset.sum_pos (fun s _ => Real.exp_pos _) Finset.univ_nonempty

/-- In the reals: shifting every logit by `a` scales numerator and denominator by e^{−a}, which cancels. -/
private theorem real_core [Nonempty κ] (x v : κ → ℝ) (a : ℝ) :
    (∑ s, Real.exp (x s - a) * v s) * (1 / ∑ s, Real.exp (x s - a)) = softAvg x v := by
  have hE : Real.exp a ≠ 0 := (Real.exp_pos a).ne'
  have hD : (∑ s, Real.exp (x s)) ≠ 0 := by
    have := sum_exp_pos x 0
    simp only [sub_zero] at this
    exact this.ne'
  have h1 : (∑ s, Real.exp (x s - a) * v s) = (∑ s, Real.exp (x s) * v s) / Real.exp a := by
    rw [Finset.sum_div]
    exact Finset.sum_congr rfl (fun s _ => by rw [Real.exp_sub]; ring)
  have h2 : (∑ s, Real.exp (x s - a)) = (∑ s, Real.exp (x s)) / Real.exp a := by
    rw [Finset.sum_div]
    exact Finset.sum_congr rfl (fun s _ => by rw [Real.exp_sub])
  rw [h1, h2, softAvg]
  field_simp

/-- The exponential of a difference of two coerced reals is the coerced real exponential. -/
private theorem exp_sub_coe (y a : ℝ) :
    Ideal.exp ((y : EReal) - (a : EReal)) = ((Real.exp (y - a) : ℝ) : EReal) := by
  rw [← EReal.coe_sub, Ideal.exp_coe]

/-- Unnormalized weights exp(x − a) times values, summed, then divided by the summed weights (each weight times one). -/
theorem weighted_sum_then_divide [Nonempty κ] (x v : κ → ℝ) (a : ℝ) :
    Ideal.div (∑ s, Ideal.exp ((x s : EReal) - (a : EReal)) * (v s : EReal))
        (∑ s, Ideal.exp ((x s : EReal) - (a : EReal)) * (1 : EReal)) = ((softAvg x v : ℝ) : EReal) := by
  simp only [exp_sub_coe, mul_one, ← EReal.coe_mul, ← coe_sum]
  rw [Ideal.div_coe (sum_exp_pos x a).ne', ← EReal.coe_mul, real_core]

/-- Each weight exp(x − a) normalized by (zero plus) the sum of the weights, times its value, summed. -/
theorem normalize_then_weighted_sum [Nonempty κ] (x v : κ → ℝ) (a : ℝ) :
    ∑ s, Ideal.div (Ideal.exp ((x s : EReal) - (a : EReal))) ((0 : EReal) + ∑ s', Ideal.exp ((x s' : EReal) - (a : EReal))) * (v s : EReal)
      = ((softAvg x v : ℝ) : EReal) := by
  simp only [exp_sub_coe, zero_add, ← coe_sum]
  simp only [Ideal.div_coe (sum_exp_pos x a).ne', ← EReal.coe_mul, ← coe_sum]
  rw [← real_core x v a, Finset.sum_mul]
  congr 1
  exact Finset.sum_congr rfl (fun s _ => by ring)

/-! The float constants the two programs spell, as the extended reals they denote. -/

/-- The f32 pattern of 2⁻⁶ denotes the real 1/64. -/
theorem ofBits_inv64 : Ideal.ofBits .f32 0x3C800000#32 = (((1 : ℝ) / 64 : ℝ) : EReal) := by
  simp [Ideal.ofBits, Ideal.ieee, -EReal.coe_mul]; norm_num
/-- The f32 pattern of −∞ denotes the bottom element. -/
theorem ofBits_negInf : Ideal.ofBits .f32 0xFF800000#32 = (⊥ : EReal) := by
  simp [Ideal.ofBits, Ideal.ieee]
/-- The bf16 pattern of 1.0 denotes one. -/
theorem ofBits_one_bf16 : Ideal.ofBits .bf16 0x3F80#16 = (1 : EReal) := by
  simp [Ideal.ofBits, Ideal.ieee, -EReal.coe_mul]; norm_num

end Cert.SoftmaxAlgebra

end
-- ==== Proof.AttentionSpec.lean ====
/-
  What both programs compute, as one function of four arrays of real numbers:
  for batch b, query row t and output feature d,
    out[b, t, d] = Σ_s softmax_s( (Σ_e Q[b,t,e]·K[b,s,e]) / 64 + M[b,t,s] ) · V[b,s,d],
  the softmax-weighted average of value column d under the masked, scaled scores of row (b, t).
-/
import proofs.«420499_j13314398617954_3_alg».proof.Proof.SoftmaxAlgebra
import Idealize.ShloMosaic.Lib.ValueIdx

noncomputable section

namespace Cert.AttentionSpec

open Idealize.ShloMosaic Idealize.ShloMosaic.ValueIdx Cert.SoftmaxAlgebra

/-- The shape of the queries, keys, values and the output. -/
abbrev QKV : Shape := ⟨3, ![4, 4096, 64]⟩
/-- The shape of the additive mask. -/
abbrev Msk : Shape := ⟨3, ![4, 4096, 4096]⟩

/-- An array of reals as an array of extended reals. -/
def coeArr {S : Shape} (A : S.Idx → ℝ) : S.Idx → EReal := fun i => (A i : EReal)

theorem coeArr_apply {S : Shape} (A : S.Idx → ℝ) (i : S.Idx) : coeArr A i = (A i : EReal) := rfl

/-- An array of extended reals whose entries are all real is the coercion of the array of its real parts. -/
theorem eq_coeArr {S : Shape} (A : S.Idx → EReal) (h : ∀ i, A i = ((EReal.toReal (A i) : ℝ) : EReal)) :
    A = coeArr (fun i => EReal.toReal (A i)) := funext h

/-- The masked, scaled scores of query row (b, t) against every key of batch b. -/
def logits (Q K : QKV.Idx → ℝ) (M : Msk.Idx → ℝ) (b : Fin 4) (t : Fin 4096) : Fin 4096 → ℝ :=
  score ((1 : ℝ) / 64) (fun e : Fin 64 => Q (ix3 b t e)) (fun (s : Fin 4096) (e : Fin 64) => K (ix3 b s e))
    (fun s : Fin 4096 => M (ix3 b t s))

/-- Column d of the values of batch b. -/
def valueCol (V : QKV.Idx → ℝ) (b : Fin 4) (d : Fin 64) : Fin 4096 → ℝ := fun s => V (ix3 b s d)

/-- Attention: each output entry is the softmax-weighted average of a value column under its row's scores. -/
def attn (Q K V : QKV.Idx → ℝ) (M : Msk.Idx → ℝ) : QKV.Idx → EReal :=
  fun i => ((softAvg (logits Q K M ⟨(i 0).val, (i 0).isLt⟩ ⟨(i 1).val, (i 1).isLt⟩)
    (valueCol V ⟨(i 0).val, (i 0).isLt⟩ ⟨(i 2).val, (i 2).isLt⟩) : ℝ) : EReal)

theorem attn_apply (Q K V : QKV.Idx → ℝ) (M : Msk.Idx → ℝ) (b : Fin 4) (t : Fin 4096) (d : Fin 64) :
    attn Q K V M (ix3 b t d) = ((softAvg (logits Q K M b t) (valueCol V b d) : ℝ) : EReal) := rfl

end Cert.AttentionSpec

end
-- ==== Proof.KernelValue.lean ====
/-
  The kernel's result array on arrays of real numbers.  The key scratch holds the key block itself (a change of float
  format is the identity on the extended reals); the widened value scratch holds the value block in columns 0 … 63 and
  the number one in column 64.  So the tile a grid point leaves has, at (p, d), the quotient of Σ_s w_s · V[b,s,d] by
  Σ_s w_s · 1 with w_s = exp(score_s − row maximum): the softmax-weighted average, which is attention at row
  256·j + p of batch b.  The 64 tiles cover the output array, each written by its own grid point.
-/
import proofs.«420499_j13314398617954_3_alg».proof.Proof.Gen.KernelIdeal.Value
import proofs.«420499_j13314398617954_3_alg».proof.Proof.Blocks
import proofs.«420499_j13314398617954_3_alg».proof.Proof.TileValue
import proofs.«420499_j13314398617954_3_alg».proof.Proof.AttentionSpec

noncomputable section

namespace Cert.KernelIdeal.KernelValue

open Cert.KernelIdeal Cert.KernelIdeal.Gen Cert.KernelIdeal.Tile Cert.KernelIdeal.Blocks
open Idealize.ShloMosaic Idealize.ShloMosaic.TcCoe Idealize.SL.Sem Idealize.ShloMosaic.ValueIdx
open Idealize.ShloMosaic.Pipeline (Dat)
open Cert.SoftmaxAlgebra Cert.AttentionSpec

/-! ## The two carried blocks at an entry -/

/-- The key scratch at (s, e) is the key block's entry. -/
theorem keys_apply (x : FVec Ideal S1x4096x64 .f32) (s : Fin 4096) (e : Fin 64) :
    k0_pay1 (F := Ideal) x (ix2 s e) = x (ix3 (0 : Fin 1) s e) := by
  unfold k0_pay1
  rw [shapeCast_self, truncf_apply, shapeCast_1ab_ab_apply]

/-- The widened value scratch in a column d < 64 is the value block's entry. -/
theorem concat_left (a : FVec Ideal S4096x64 .bf16) (b : FVec Ideal S4096x1 .bf16) (c : FVec Ideal S4096x63 .bf16)
    (s : Fin 4096) (d : Fin 64) :
    concatenate S4096x128 1 [⟨S4096x64, a⟩, ⟨S4096x1, b⟩, ⟨S4096x63, c⟩] concatenates_S4096x64_S4096x1_S4096x63_S4096x128_d1
      (ix2 s (Fin.castLE (by decide) d : Fin 128)) = a (ix2 s d) :=
  concatenate_apply_piece (1 : Fin S4096x128.rank) [⟨S4096x64, a⟩, ⟨S4096x1, b⟩, ⟨S4096x63, c⟩]
    concatenates_S4096x64_S4096x1_S4096x63_S4096x128_d1 (ix2 s (Fin.castLE (by decide) d : Fin 128)) 0 (Nat.zero_lt_succ _)
    S4096x64 a rfl rfl 0 rfl (ix2 s d)
    (fun b hb => by
      match b with
      | ⟨0, _⟩ => rfl
      | ⟨1, _⟩ => exact absurd rfl hb)
    (by show 0 + d.val = d.val; omega)

theorem concat_mid (a : FVec Ideal S4096x64 .bf16) (b : FVec Ideal S4096x1 .bf16) (c : FVec Ideal S4096x63 .bf16)
    (s : Fin 4096) :
    concatenate S4096x128 1 [⟨S4096x64, a⟩, ⟨S4096x1, b⟩, ⟨S4096x63, c⟩] concatenates_S4096x64_S4096x1_S4096x63_S4096x128_d1
      (ix2 s (64 : Fin 128)) = b (ix2 s (0 : Fin 1)) :=
  concatenate_apply_piece (1 : Fin S4096x128.rank) [⟨S4096x64, a⟩, ⟨S4096x1, b⟩, ⟨S4096x63, c⟩]
    concatenates_S4096x64_S4096x1_S4096x63_S4096x128_d1 (ix2 s (64 : Fin 128)) 1 (Nat.succ_lt_succ (Nat.zero_lt_succ _))
    S4096x1 b rfl rfl 64 rfl (ix2 s (0 : Fin 1))
    (fun b hb => by
      match b with
      | ⟨0, _⟩ => rfl
      | ⟨1, _⟩ => exact absurd rfl hb)
    rfl

theorem wide_value_apply (x : FVec Ideal S1x4096x64 .f32) (s : Fin 4096) (d : Fin 64) :
    k0_pay2 (F := Ideal) x (ix2 s (Fin.castLE (by decide) d : Fin 128)) = x (ix3 (0 : Fin 1) s d) := by
  unfold k0_pay2
  rw [shapeCast_self, concat_left, truncf_apply, shapeCast_1ab_ab_apply]

/-- The widened value scratch in column 64 is the constant one. -/
theorem wide_one_apply (x : FVec Ideal S1x4096x64 .f32) (s : Fin 4096) :
    k0_pay2 (F := Ideal) x (ix2 s (64 : Fin 128)) = Ideal.ofBits .bf16 0x3F80#16 := by
  unfold k0_pay2
  rw [shapeCast_self, concat_mid]
  rfl

/-! ## A tile on real arrays -/

variable (Qr Kr Vr : QKV.Idx → ℝ) (Mr : Msk.Idx → ℝ)

/-- Row p of query tile j, as a row of the whole array. -/
def rowOf (j : Fin 16) (p : Fin 256) : Fin 4096 := ⟨256 * j.val + p.val, by have := j.isLt; have := p.isLt; omega⟩

/-- The tile's scores are the masked, scaled scores of the row. -/
theorem tile_score_real (b : Fin 4) (j : Fin 16) (p : Fin 256) (s : Fin 4096) :
    tileScore (rowsBlock (F := Ideal) (coeArr Qr) b j) (k0_pay1 (F := Ideal) (batchBlock (F := Ideal) (coeArr Kr) b))
      (rowsBlock (F := Ideal) (coeArr Mr) b j) p s = ((logits Qr Kr Mr b (rowOf j p) s : ℝ) : EReal) := by
  unfold tileScore
  simp only [keys_apply]
  rw [ofBits_inv64]
  exact score_of_scaled_query ((1 : ℝ) / 64) (fun e : Fin 64 => Qr (ix3 b (rowOf j p) e)) (fun (s : Fin 4096) (e : Fin 64) => Kr (ix3 b s e))
    (fun s : Fin 4096 => Mr (ix3 b (rowOf j p) s)) s

/-- The tile a grid point of batch b and query tile j leaves is attention at its rows. -/
theorem tile_real (b : Fin 4) (j : Fin 16) (u : Fin 1) (p : Fin 256) (d : Fin 64) :
    k0_pay3 (F := Ideal) (rowsBlock (F := Ideal) (coeArr Qr) b j) (k0_pay1 (F := Ideal) (batchBlock (F := Ideal) (coeArr Kr) b))
      (k0_pay2 (F := Ideal) (batchBlock (F := Ideal) (coeArr Vr) b)) (rowsBlock (F := Ideal) (coeArr Mr) b j) (ix3 u p d)
      = attn Qr Kr Vr Mr (ix3 b (rowOf j p) d) := by
  rw [tile_apply, attn_apply]
  simp only [tile_score_real, wide_value_apply, wide_one_apply]
  rw [ofBits_negInf, ofBits_one_bf16]
  obtain ⟨a, ha⟩ := rowMax_real (κ := Fin 4096) (logits Qr Kr Mr b (rowOf j p))
  rw [ha]
  exact weighted_sum_then_divide (logits Qr Kr Mr b (rowOf j p)) (valueCol Vr b d) a

/-! ## The result array -/

variable (m : (ℓ : Loc nD τ sig) → Buf (Elt Ideal) ℓ) (ρ : Dev nD → PrngReg)

/-- What point t writes back is its tile of attention. -/
theorem flushed_eq (c : Dev nD) (hQ : V m c main_arg0 = coeArr Qr) (hK : V m c main_arg1 = coeArr Kr)
    (hV : V m c main_arg2 = coeArr Vr) (hM : V m c main_arg3 = coeArr Mr) (t : Fin cfg0.N) :
    (dats m 0 c).flushed 4 t = ((cfg0.win 4).blk t).view.read (Elt Ideal) (attn Qr Kr Vr Mr) := by
  rw [Cert.KernelIdeal.Value.flushed4, out_at, hQ, hK, hV, hM]
  obtain ⟨-, -, -, -, -, -, -, -, -, -, -, -, e0, e1, e2⟩ := idx_facts t
  funext y
  obtain ⟨u, p, d, rfl⟩ : ∃ (u : Fin 1) (p : Fin 256) (d : Fin 64), y = ix3 u p d := ⟨y 0, y 1, y 2, eq_ix3 y⟩
  rw [View.read_apply]
  show k0_pay3 (F := Ideal) _ _ _ _ (ix3 u p d) = _
  rw [tile_real]
  refine congrArg (attn Qr Kr Vr Mr) (funext fun a => Fin.ext ?_)
  have hu : u.val = 0 := by omega
  have ht := lt64 t
  match a with
  | ⟨0, _⟩ => show t.val / 16 = win0_4.index t (0 : Fin 3) * 1 + 1 * u.val; omega
  | ⟨1, _⟩ => show 256 * (t.val % 16) + p.val = win0_4.index t (1 : Fin 3) * 256 + 1 * p.val; omega
  | ⟨2, _⟩ => show d.val = win0_4.index t (2 : Fin 3) * 64 + 1 * d.val; omega

/-- An index of the output array is in point t's block iff each coordinate is in the block's range on its axis. -/
theorem mem_blk (t : Fin cfg0.N) (i : S4x4096x64.Idx) :
    i ∈ ((cfg0.win 4).blk t).view.set ↔ ∀ a : Fin 3, win0_4.index t a * S1x256x64.size a ≤ (i a).val ∧ (i a).val < win0_4.index t a * S1x256x64.size a + S1x256x64.size a := by
  show i ∈ ((View.whole main_v0).slice (win0_4.rect t)).set ↔ _
  rw [View.set_slice_whole, Rect.mem_set_unit]
  exact Iff.rfl

/-- Every entry of the output array lies in the tile of the point 16·b + (row / 256). -/
theorem cover (i : S4x4096x64.Idx) : ∃ t : Fin cfg0.N, (cfg0.win 4).flush t = true ∧ i ∈ ((cfg0.win 4).blk t).view.set := by
  have h0 : (i 0).val < 4 := (i 0).isLt
  have h1 : (i 1).val < 4096 := (i 1).isLt
  have h2 : (i 2).val < 64 := (i 2).isLt
  have hN : cfg0.N = 64 := N_0
  refine ⟨⟨16 * (i 0).val + (i 1).val / 256, by omega⟩, flush0_4 _, ?_⟩
  obtain ⟨-, -, -, -, -, -, -, -, -, -, -, -, e0, e1, e2⟩ := idx_facts (⟨16 * (i 0).val + (i 1).val / 256, by omega⟩ : Fin cfg0.N)
  rw [mem_blk]
  intro a
  match a with
  | ⟨0, _⟩ => show win0_4.index _ (0 : Fin 3) * 1 ≤ (i 0).val ∧ (i 0).val < win0_4.index _ (0 : Fin 3) * 1 + 1
              rw [e0]; dsimp only; omega
  | ⟨1, _⟩ => show win0_4.index _ (1 : Fin 3) * 256 ≤ (i 1).val ∧ (i 1).val < win0_4.index _ (1 : Fin 3) * 256 + 256
              rw [e1]; dsimp only; omega
  | ⟨2, _⟩ => show win0_4.index _ (2 : Fin 3) * 64 ≤ (i 2).val ∧ (i 2).val < win0_4.index _ (2 : Fin 3) * 64 + 64
              rw [e2]; omega

/-- So the output array ends holding attention. -/
theorem final (c : Dev nD) (hQ : V m c main_arg0 = coeArr Qr) (hK : V m c main_arg1 = coeArr Kr)
    (hV : V m c main_arg2 = coeArr Vr) (hM : V m c main_arg3 = coeArr Mr) :
    (dats m 0 c).arrAt 4 cfg0.N = attn Qr Kr Vr Mr :=
  (dats m 0 c).arrAt_eq_of_cover 4 (attn Qr Kr Vr Mr) (fun t _ => flushed_eq Qr Kr Vr Mr m c hQ hK hV hM t) cover

end Cert.KernelIdeal.KernelValue

end
-- ==== Proof.RefValue.lean ====
/-
  The reference program, read entry by entry on arrays of real numbers: its scores are the masked, scaled scores; its
  row maximum (the fold of max from −∞, then max with −∞ again) is a real number; its weights are exp(score − maximum);
  its result is the sum over the keys of (weight / (0 + sum of the weights)) · value — attention.
-/
import proofs.«420499_j13314398617954_3_alg».proof.Proof.Gen.ReferenceIdeal.Read
import proofs.«420499_j13314398617954_3_alg».proof.Proof.AttentionSpec

noncomputable section

namespace Cert.ReferenceIdeal.RefValue

open Cert.ReferenceIdeal Cert.ReferenceIdeal.Gen Cert.ReferenceIdeal.Read Idealize.ShloMosaic Idealize.ShloMosaic.ValueIdx
open Cert.SoftmaxAlgebra Cert.AttentionSpec

variable (Q K V : QKV.Idx → ℝ) (M : Msk.Idx → ℝ)

/-- The reference's scores. -/
theorem ref_score (b : Fin 4) (t s : Fin 4096) :
    val_main_v3 (F := Ideal) (coeArr Q) (coeArr K) (coeArr M) (ix3 b t s) = ((logits Q K M b t s : ℝ) : EReal) := by
  rw [val_main_v3_apply, val_main_v2_apply, val_main_v0_apply, val_main_v1_apply, val_main_cst_apply]
  have el : ∀ k, lidx_main_v0 (ix3 b t s) k = ix3 b t k := fun k => funext fun a => Fin.ext (by
    match a with | ⟨0, _⟩ => rfl | ⟨1, _⟩ => rfl | ⟨2, _⟩ => rfl)
  have er : ∀ k, ridx_main_v0 (ix3 b t s) k = ix3 b s k := fun k => funext fun a => Fin.ext (by
    match a with | ⟨0, _⟩ => rfl | ⟨1, _⟩ => rfl | ⟨2, _⟩ => rfl)
  simp only [el, er, coeArr_apply, Ideal.addf_def, Ideal.mulf_def, Ideal.ofBits_def, ofBits_inv64]
  exact score_of_scaled_product ((1 : ℝ) / 64) (fun e : Fin 64 => Q (ix3 b t e)) (fun (s : Fin 4096) (e : Fin 64) => K (ix3 b s e))
    (fun s : Fin 4096 => M (ix3 b t s)) s

/-- The reference's row maximum is a real number. -/
theorem ref_max (b : Fin 4) (t : Fin 4096) :
    ∃ a : ℝ, val_main_v6 (F := Ideal) (coeArr Q) (coeArr K) (coeArr M) (ix2 b t) = (a : EReal) := by
  obtain ⟨a, ha⟩ := rowMax_real (κ := Fin 4096) (logits Q K M b t)
  refine ⟨a, ?_⟩
  rw [val_main_v6_apply, val_main_v5_apply, val_main_cst_1_apply]
  unfold val_main_v4
  rw [Host.reduce_eq_fold_single FloatOps.maximumf _ _ reducesTo_S4x4096x4096_S4x4096_d2 (by decide) h_S_ (ix2 b t)]
  have hf : (val_main_v3 (F := Ideal) (coeArr Q) (coeArr K) (coeArr M)) ∘ (Shape.Reduces.lift (by decide : S4x4096x4096.Reduces [2] S4x4096) (ix2 b t))
      = fun s : Fin 4096 => ((logits Q K M b t s : ℝ) : EReal) := by
    funext s
    show val_main_v3 (F := Ideal) (coeArr Q) (coeArr K) (coeArr M) _ = _
    rw [← ref_score Q K M b t s]
    exact congrArg _ (funext fun a => Fin.ext (by match a with | ⟨0, _⟩ => rfl | ⟨1, _⟩ => rfl | ⟨2, _⟩ => rfl))
  rw [hf, val_main_cst_0_apply]
  show max (Ideal.ofBits .f32 0xFF800000#32) ((Finset.univ : Finset (Fin 4096)).fold max (Ideal.ofBits .f32 0xFF800000#32) _) = _
  rw [ofBits_negInf, ha]
  exact max_eq_right bot_le

/-- The reference's weights. -/
theorem ref_weight (b : Fin 4) (t s : Fin 4096) (a : ℝ)
    (ha : val_main_v6 (F := Ideal) (coeArr Q) (coeArr K) (coeArr M) (ix2 b t) = (a : EReal)) :
    val_main_v10 (F := Ideal) (coeArr Q) (coeArr K) (coeArr M) (ix3 b t s)
      = Ideal.exp (((logits Q K M b t s : ℝ) : EReal) - (a : EReal)) := by
  rw [val_main_v10_apply, Ideal.hostUnary_exp_def, val_main_v9_apply, Ideal.subf_def, ref_score, val_main_v8_apply, val_main_v7_apply]
  have e : idx_main_v7 (idx_main_v8 (ix3 b t s)) = ix2 b t := funext fun a => Fin.ext (by
    match a with | ⟨0, _⟩ => rfl | ⟨1, _⟩ => rfl)
  rw [e, ha]

/-- The reference's normalizer: zero plus the sum of the row's weights. -/
theorem ref_normalizer (b : Fin 4) (t s : Fin 4096) (a : ℝ)
    (ha : val_main_v6 (F := Ideal) (coeArr Q) (coeArr K) (coeArr M) (ix2 b t) = (a : EReal)) :
    val_main_v13 (F := Ideal) (coeArr Q) (coeArr K) (coeArr M) (ix3 b t s)
      = (0 : EReal) + ∑ s' : Fin 4096, Ideal.exp (((logits Q K M b t s' : ℝ) : EReal) - (a : EReal)) := by
  rw [val_main_v13_apply, val_main_v12_apply]
  have e : idx_main_v12 (idx_main_v13 (ix3 b t s)) = ix2 b t := funext fun a => Fin.ext (by
    match a with | ⟨0, _⟩ => rfl | ⟨1, _⟩ => rfl)
  rw [e, val_main_v11_apply, val_main_cst_2_apply, Ideal.ofBits_def, Ideal.ofBits_zero_f32]
  refine congrArg ((0 : EReal) + ·) (Finset.sum_congr rfl fun k _ => ?_)
  have e2 : idx_main_v11 (ix2 b t) k = ix3 b t k := funext fun a => Fin.ext (by
    match a with | ⟨0, _⟩ => rfl | ⟨1, _⟩ => rfl | ⟨2, _⟩ => rfl)
  rw [e2, ref_weight Q K M b t k a ha]

/-- The reference computes attention. -/
theorem ref_eq : val_main_v15 (F := Ideal) (coeArr Q) (coeArr K) (coeArr V) (coeArr M) = attn Q K V M := by
  funext i
  obtain ⟨b, t, d, rfl⟩ : ∃ (b : Fin 4) (t : Fin 4096) (d : Fin 64), i = ix3 b t d := ⟨i 0, i 1, i 2, eq_ix3 i⟩
  rw [val_main_v15_apply, attn_apply]
  obtain ⟨a, ha⟩ := ref_max Q K M b t
  rw [← normalize_then_weighted_sum (logits Q K M b t) (valueCol V b d) a]
  refine Finset.sum_congr rfl fun s _ => ?_
  have el : lidx_main_v15 (ix3 b t d) s = ix3 b t s := funext fun a => Fin.ext (by
    match a with | ⟨0, _⟩ => rfl | ⟨1, _⟩ => rfl | ⟨2, _⟩ => rfl)
  have er : ridx_main_v15 (ix3 b t d) s = ix3 b s d := funext fun a => Fin.ext (by
    match a with | ⟨0, _⟩ => rfl | ⟨1, _⟩ => rfl | ⟨2, _⟩ => rfl)
  rw [el, er, val_main_v14_apply, Ideal.hostDivf_def, ref_weight Q K M b t s a ha, ref_normalizer Q K M b t s a ha]
  rfl

end Cert.ReferenceIdeal.RefValue

end
-- ==== Proof.FiniteInputs.lean ====
/-
  The precondition compares, for each of the four input arrays, the absolute value of every entry
  with +∞ (strictly below), takes the conjunction over all entries, and joins the four results by
  "and"; it claims the outcome is true. Read back: at every entry x of every input, max x (-x) < ⊤.
  An extended real whose absolute value is strictly below +∞ is neither ⊤ nor ⊥ (for both of these
  the absolute value is ⊤), hence it is the coercion of a real number, namely of its own real part.
-/
import proofs.«420499_j13314398617954_3_alg».proof.Pre_finite_inputs
import proofs.«420499_j13314398617954_3_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.FiniteInputs

open Idealize.ShloMosaic Cert.Pre_finite_inputs

/-- An extended real whose absolute value max x (-x) is strictly below ⊤ is a real number. -/
theorem eq_coe_toReal_of_abs_lt_top (x : EReal) (h : max x (-x) < ⊤) : x = ((EReal.toReal x : ℝ) : EReal) := by
  induction x using EReal.rec with
  | bot => simp at h
  | coe r => simp
  | top => simp at h

/-- The bit pattern 0x7F800000 denotes +∞. -/
theorem ofBits_inf : Ideal.ofBits .f32 0x7F800000#32 = ⊤ := by simp [Ideal.ofBits, Ideal.ieee]

/-- The strict comparison read back: if "a < b" evaluates to the word 1, then a < b. -/
theorem lt_of_cmp_olt {a b : EReal} (h : Ideal.cmp .olt a b = 1#1) : a < b := by
  by_contra hc
  have h0 : Ideal.cmp .olt a b = 0#1 := by
    show BitVec.ofBool (decide (a < b)) = 0#1
    rw [decide_eq_false hc]; rfl
  rw [h0] at h
  exact absurd h (by decide)

/-- The element fact: an entry whose absolute value compares strictly below the constant +∞ is real. -/
theorem elem_real (x : Ideal .f32)
    (h : FloatOps.cmpf (F := Ideal) .olt (FloatOps.hostAbsf x) (FloatOps.ofBits .f32 0x7F800000#32) = 1#1) :
    x = ((EReal.toReal x : ℝ) : EReal) := by
  apply eq_coe_toReal_of_abs_lt_top
  have h' : Ideal.cmp .olt (max x (-x)) (Ideal.ofBits .f32 0x7F800000#32) = 1#1 := h
  rw [ofBits_inf] at h'
  exact lt_of_cmp_olt h'

/-- The rank-0 result shape has exactly one index. -/
instance : Subsingleton S_.Idx := ⟨fun a b => funext fun d => d.elim0⟩

/-- One input array: if the conjunction over all entries of "absolute value below +∞" is true,
    every entry is real. -/
theorem all_real {s : Shape} {axes : List (Fin s.rank)} (hb : S_.BroadcastsInDim s (![] : Fin 0 → Fin s.rank))
    (hr : s.ReducesTo axes S_) (hu : 0 < S_.numel) (X : FVec Ideal s .f32) (j : S_.Idx)
    (h : Host.reduce IntOp.andi
          (cmpf .olt (Host.absf X) (broadcastInDim s ![] hb (constant S_ .f32 0x7F800000#32)))
          (constantI S_ 1 1#1) hr hu j = 1#1) :
    ∀ i, X i = ((EReal.toReal (X i) : ℝ) : EReal) := fun i =>
  elem_real (X i) (Host.reduce_andi_all _ _ hr hu j h i)

/-- Under the precondition every entry of the four input arrays is a real number. -/
theorem real_of_pre [Cert.Pre_finite_inputs.Facts]
    (Q K V : FVec Ideal S4x4096x64 .f32) (M : FVec Ideal S4x4096x4096 .f32)
    (h : Cert.Pre_finite_inputs.fn (F := Ideal) Q K V M = fun _ => 1#1) :
    (∀ i, Q i = ((EReal.toReal (Q i) : ℝ) : EReal)) ∧ (∀ i, K i = ((EReal.toReal (K i) : ℝ) : EReal))
      ∧ (∀ i, V i = ((EReal.toReal (V i) : ℝ) : EReal)) ∧ (∀ i, M i = ((EReal.toReal (M i) : ℝ) : EReal)) := by
  have h0 := congrFun h ValueIdx.ix0
  dsimp only [fn, fn_part1, andi] at h0
  obtain ⟨h123, h4⟩ := IntOp.andi_eq_one.1 h0
  obtain ⟨h12, h3⟩ := IntOp.andi_eq_one.1 h123
  obtain ⟨h1, h2⟩ := IntOp.andi_eq_one.1 h12
  exact ⟨all_real _ _ _ Q _ h1, all_real _ _ _ K _ h2, all_real _ _ _ V _ h3, all_real _ _ _ M _ h4⟩

end Cert.FiniteInputs

end
-- ==== Proof.lean ====
/-
  The certificate's claim.  Both programs compute scaled dot-product attention with an additive mask,
      out[b, t, d] = Σ_s softmax_s( (Σ_e Q[b,t,e]·K[b,s,e]) / 64 + M[b,t,s] ) · V[b,s,d].
  The reference multiplies the inner products by 1/64, adds the mask, subtracts the row maximum, exponentiates,
  divides every weight by the row's sum of weights, and multiplies by the values.  The kernel works on tiles of 256 query
  rows of one batch: it multiplies the QUERY entries by 1/64 before the inner products, keeps per batch a copy of the keys
  and a 128-wide copy of the values whose column 64 is all ones, so that ONE product of the unnormalized weights with that
  copy yields both the weighted value sums (columns 0 … 63) and the sum of the weights (column 64), and divides the
  former by the latter.  On finite inputs every quantity is a real number: scaling before or after the inner product is
  the same by distributivity, the row maximum is a real number so the weights are positive reals, and dividing the
  weighted sum by the sum of weights equals summing the normalized weights times the values.  The three frame claims are the
  generated frames; the idealization rewrote nothing.
-/
import proofs.«420499_j13314398617954_3_alg».proof.Defs
import proofs.«420499_j13314398617954_3_alg».proof.Proof.Gen.Kernel
import proofs.«420499_j13314398617954_3_alg».proof.Proof.Gen.Kernel.Frame
import proofs.«420499_j13314398617954_3_alg».proof.Proof.Gen.KernelIdeal
import proofs.«420499_j13314398617954_3_alg».proof.Proof.Gen.KernelIdeal.Frame
import proofs.«420499_j13314398617954_3_alg».proof.Proof.Gen.ReferenceIdeal
import proofs.«420499_j13314398617954_3_alg».proof.Proof.Gen.Pre_finite_inputs
import proofs.«420499_j13314398617954_3_alg».proof.Proof.Gen.KernelIdeal.Value
import proofs.«420499_j13314398617954_3_alg».proof.Proof.Gen.ReferenceIdeal.Run
import proofs.«420499_j13314398617954_3_alg».proof.Proof.Gen.ReferenceIdeal.Read
import proofs.«420499_j13314398617954_3_alg».proof.Proof.KernelValue
import proofs.«420499_j13314398617954_3_alg».proof.Proof.RefValue
import proofs.«420499_j13314398617954_3_alg».proof.Proof.FiniteInputs
import Idealize.ShloMosaic.Adequacy
import Idealize.ShloMosaic.Init

noncomputable section

namespace Cert.Proof

open Idealize.ShloMosaic Idealize.ShloMosaic.TcCoe Idealize.SL.Sem Cert.AttentionSpec

/-- The real parts of an array of extended reals. -/
def realPart {S : Shape} (A : S.Idx → EReal) : S.Idx → ℝ := fun i => EReal.toReal (A i)

theorem eq_coe_realPart {S : Shape} (A : S.Idx → EReal) (h : ∀ i, A i = ((EReal.toReal (A i) : ℝ) : EReal)) :
    A = coeArr (realPart A) := funext h

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On arrays of real numbers the reference's result is attention of their real parts. -/
theorem reference_result (Q K V : QKV.Idx → EReal) (M : Msk.Idx → EReal)
    (hQ : ∀ i, Q i = ((EReal.toReal (Q i) : ℝ) : EReal)) (hK : ∀ i, K i = ((EReal.toReal (K i) : ℝ) : EReal))
    (hV : ∀ i, V i = ((EReal.toReal (V i) : ℝ) : EReal)) (hM : ∀ i, M i = ((EReal.toReal (M i) : ℝ) : EReal)) :
    Cert.ReferenceIdeal.Read.val_main_v15 (F := Ideal) Q K V M = attn (realPart Q) (realPart K) (realPart V) (realPart M) := by
  have h := Cert.ReferenceIdeal.RefValue.ref_eq (realPart Q) (realPart K) (realPart V) (realPart M)
  rwa [← eq_coe_realPart Q hQ, ← eq_coe_realPart K hK, ← eq_coe_realPart V hV, ← eq_coe_realPart M hM] at h

theorem algebraic : Cert.algebraic_KernelIdeal_ReferenceIdeal := by
  intro m ρ m' ρ' hpre hagree
  have hreal := fun c : Dev Cert.KernelIdeal.nD => Cert.FiniteInputs.real_of_pre
    (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (hpre c)
  refine ⟨fun c => attn (realPart (m ((c.tc : Thread Cert.KernelIdeal.nD Cert.KernelIdeal.τ).loc Cert.KernelIdeal.main_arg0))) (realPart (m ((c.tc : Thread Cert.KernelIdeal.nD Cert.KernelIdeal.τ).loc Cert.KernelIdeal.main_arg1)))
    (realPart (m ((c.tc : Thread Cert.KernelIdeal.nD Cert.KernelIdeal.τ).loc Cert.KernelIdeal.main_arg2))) (realPart (m ((c.tc : Thread Cert.KernelIdeal.nD Cert.KernelIdeal.τ).loc Cert.KernelIdeal.main_arg3))), ?_, ?_⟩
  · refine (θ_run Cert.KernelIdeal.defs _ _).mono (fun r h c => ⟨(h c).1.trans ?_, (h c).2⟩)
      (Cert.KernelIdeal.Value.run_blocks (F := Ideal) m ρ)
    exact Cert.KernelIdeal.KernelValue.final _ _ _ _ m c (eq_coe_realPart _ (hreal c).1) (eq_coe_realPart _ (hreal c).2.1)
      (eq_coe_realPart _ (hreal c).2.2.1) (eq_coe_realPart _ (hreal c).2.2.2)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v15_eq, (hagree c).1, (hagree c).2.1, (hagree c).2.2.1, (hagree c).2.2.2]
    exact reference_result _ _ _ _ (hreal c).1 (hreal c).2.1 (hreal c).2.2.1 (hreal c).2.2.2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
